-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x600x25x2 : Shape := ⟨5, ![256, 3, 600, 25, 2]⟩
abbrev S_ : Shape := ⟨0, ![]⟩

class Facts : Prop where
  bcast_S_S256x3x600x25x2 : S_.BroadcastsInDim S256x3x600x25x2 (![] : Fin 0 → Fin S256x3x600x25x2.rank)
  reducesTo_S256x3x600x25x2_S_d0_1_2_3_4 : S256x3x600x25x2.ReducesTo [0, 1, 2, 3, 4] S_
  h_S_ : 0 < S_.numel

variable [Facts]

def fn {F : FTy → Type} [FloatOps F] (main_arg0 : FVec F S256x3x600x25x2 .f32) (main_arg1 : FVec F S256x3x600x25x2 .f32) : IVec S_ 1 :=
  let main_v0 : FVec F S256x3x600x25x2 .f32 := Host.absf main_arg0
  let main_cst : FVec F S_ .f32 := constant S_ .f32 0x7F800000#32
  let main_v1 : FVec F S256x3x600x25x2 .f32 := broadcastInDim S256x3x600x25x2 ![] bcast_S_S256x3x600x25x2 main_cst
  let main_v2 : IVec S256x3x600x25x2 1 := cmpf .olt main_v0 main_v1
  let main_c : IVec S_ 1 := constantI S_ 1 1#1
  let main_v3 : IVec S_ 1 := (fun x v => Host.reduce IntOp.andi x v reducesTo_S256x3x600x25x2_S_d0_1_2_3_4 h_S_) main_v2 main_c
  let main_v4 : FVec F S256x3x600x25x2 .f32 := Host.absf main_arg1
  let main_cst_0 : FVec F S_ .f32 := constant S_ .f32 0x7F800000#32
  let main_v5 : FVec F S256x3x600x25x2 .f32 := broadcastInDim S256x3x600x25x2 ![] bcast_S_S256x3x600x25x2 main_cst_0
  let main_v6 : IVec S256x3x600x25x2 1 := cmpf .olt main_v4 main_v5
  let main_c_1 : IVec S_ 1 := constantI S_ 1 1#1
  let main_v7 : IVec S_ 1 := (fun x v => Host.reduce IntOp.andi x v reducesTo_S256x3x600x25x2_S_d0_1_2_3_4 h_S_) main_v6 main_c_1
  let main_v8 : IVec S_ 1 := andi main_v3 main_v7
  main_v8
-- ==== Kernel.lean ====
abbrev S256x3x600x25x2 : Shape := ⟨5, ![256, 3, 600, 25, 2]⟩
abbrev S256x3x2x25x600 : Shape := ⟨5, ![256, 3, 2, 25, 600]⟩
abbrev S32x8x128 : Shape := ⟨3, ![32, 8, 128]⟩
abbrev S8x3x2x25x600 : Shape := ⟨5, ![8, 3, 2, 25, 600]⟩
abbrev S1x8x128 : Shape := ⟨3, ![1, 8, 128]⟩
abbrev S8x3x2x25x599 : Shape := ⟨5, ![8, 3, 2, 25, 599]⟩
abbrev S8x2x25x599 : Shape := ⟨4, ![8, 2, 25, 599]⟩
abbrev S8x25x599 : Shape := ⟨3, ![8, 25, 599]⟩
abbrev S8x25 : Shape := ⟨2, ![8, 25]⟩
abbrev S8 : Shape := ⟨1, ![8]⟩
abbrev S8x1 : Shape := ⟨2, ![8, 1]⟩
abbrev S8x1x1x25x1 : Shape := ⟨5, ![8, 1, 1, 25, 1]⟩
abbrev S8x2x25x600 : Shape := ⟨4, ![8, 2, 25, 600]⟩
abbrev S8x25x600 : Shape := ⟨3, ![8, 25, 600]⟩
abbrev S8x600 : Shape := ⟨2, ![8, 600]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S256x3x600x25x2, .f32⟩
  | .hbm, ⟨1, _⟩ => ⟨S256x3x600x25x2, .f32⟩
  | .hbm, ⟨2, _⟩ => ⟨S256x3x2x25x600, .f32⟩
  | .hbm, ⟨3, _⟩ => ⟨S256x3x2x25x600, .f32⟩
  | .hbm, ⟨4, _⟩ => ⟨S32x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x3x2x25x600, .f32⟩
  | .local _ .vmem, ⟨1, _⟩ => ⟨S8x3x2x25x600, .f32⟩
  | .local _ .vmem, ⟨2, _⟩ => ⟨S8x3x2x25x600, .f32⟩
  | .local _ .vmem, ⟨3, _⟩ => ⟨S8x3x2x25x600, .f32⟩
  | .local _ .vmem, ⟨4, _⟩ => ⟨S1x8x128, .f32⟩
  | .local _ .vmem, ⟨5, _⟩ => ⟨S1x8x128, .f32⟩
  | _, _ => ⟨S256x3x600x25x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x2x25x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x2x25x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x3x600x25x2_S256x3x2x25x600_0_1_4_3_2 : S256x3x600x25x2.Transposes [0, 1, 4, 3, 2] S256x3x2x25x600
  inb_S8x3x2x25x600_S8x3x2x25x600_0_0_0_0_0 : ∀ a, (![0, 0, 0, 0, 0] : Fin 5 → Nat) a + S8x3x2x25x600.size a ≤ S8x3x2x25x600.size a
  h_S8x3x2x25x600 : 0 < S8x3x2x25x600.numel
  shapeCasts_S8x3x2x25x600_S8x3x2x25x600 : S8x3x2x25x600.ShapeCasts S8x3x2x25x600
  slices_S8x3x2x25x600_o0_0_0_0_1_S8x3x2x25x599 : S8x3x2x25x600.Slices ![0, 0, 0, 0, 1] S8x3x2x25x599
  slices_S8x3x2x25x600_o0_0_0_0_0_S8x3x2x25x599 : S8x3x2x25x600.Slices ![0, 0, 0, 0, 0] S8x3x2x25x599
  reduces_S8x3x2x25x599_S8x2x25x599 : S8x3x2x25x599.Reduces [1] S8x2x25x599
  reduces_S8x2x25x599_S8x25x599 : S8x2x25x599.Reduces [1] S8x25x599
  reduces_S8x25x599_S8x25 : S8x25x599.Reduces [2] S8x25
  reduces_S8x25_S8 : S8x25.Reduces [1] S8
  shapeCasts_S8_S8x1 : S8.ShapeCasts S8x1
  broadcasts_S8x1_S8x25 : S8x1.Broadcasts S8x25
  shapeCasts_S8x25_S8x1x1x25x1 : S8x25.ShapeCasts S8x1x1x25x1
  broadcasts_S8x1x1x25x1_S8x3x2x25x600 : S8x1x1x25x1.Broadcasts S8x3x2x25x600
  reduces_S8x3x2x25x600_S8x2x25x600 : S8x3x2x25x600.Reduces [1] S8x2x25x600
  reduces_S8x2x25x600_S8x25x600 : S8x2x25x600.Reduces [1] S8x25x600
  reduces_S8x25x600_S8x600 : S8x25x600.Reduces [1] S8x600
  reduces_S8x600_S8 : S8x600.Reduces [1] S8
  reduces_S8x1_S1 : S8x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S32x8x128_S_d0_1_2 : S32x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x2x25x600.size a ≤ S256x3x2x25x600.size a
  hwx0_0 : ∀ i : grid0.Coords, EltTy.bits .f32 = 32 ∨ (Rect.block (s := S256x3x2x25x600) S8x3x2x25x600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x2x25x600.size a ≤ S256x3x2x25x600.size a
  hwx0_1 : ∀ i : grid0.Coords, EltTy.bits .f32 = 32 ∨ (Rect.block (s := S256x3x2x25x600) S8x3x2x25x600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

abbrev win0_0 : Pipeline.Window sig grid0 :=
  Pipeline.Window.ofSpec (Memref.whole main_v0) S8x3x2x25x600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3x2x25x600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x3x600x25x2 : Shape := ⟨5, ![256, 3, 600, 25, 2]⟩
abbrev S256x3x599x25x2 : Shape := ⟨5, ![256, 3, 599, 25, 2]⟩
abbrev S_ : Shape := ⟨0, ![]⟩
abbrev S256x25 : Shape := ⟨2, ![256, 25]⟩
abbrev S256 : Shape := ⟨1, ![256]⟩
abbrev S256x1 : Shape := ⟨2, ![256, 1]⟩
abbrev S256x1x1x25x1 : Shape := ⟨5, ![256, 1, 1, 25, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x3x600x25x2, .f32⟩
  | .hbm, ⟨1, _⟩ => ⟨S256x3x600x25x2, .f32⟩
  | .hbm, ⟨2, _⟩ => ⟨S256x3x599x25x2, .f32⟩
  | .hbm, ⟨3, _⟩ => ⟨S256x3x599x25x2, .f32⟩
  | .hbm, ⟨4, _⟩ => ⟨S256x3x599x25x2, .f32⟩
  | .hbm, ⟨5, _⟩ => ⟨S256x3x599x25x2, .f32⟩
  | .hbm, ⟨6, _⟩ => ⟨S_, .f32⟩
  | .hbm, ⟨7, _⟩ => ⟨S256x25, .f32⟩
  | .hbm, ⟨8, _⟩ => ⟨S_, .f32⟩
  | .hbm, ⟨9, _⟩ => ⟨S256x25, .f32⟩
  | .hbm, ⟨10, _⟩ => ⟨S256x25, .f32⟩
  | .hbm, ⟨11, _⟩ => ⟨S_, .f32⟩
  | .hbm, ⟨12, _⟩ => ⟨S256x25, .f32⟩
  | .hbm, ⟨13, _⟩ => ⟨S256x25, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x25, .f32⟩
  | .hbm, ⟨18, _⟩ => ⟨S256x25, .f32⟩
  | .hbm, ⟨19, _⟩ => ⟨S256x3x600x25x2, .f32⟩
  | .hbm, ⟨20, _⟩ => ⟨S256x3x600x25x2, .f32⟩
  | .hbm, ⟨21, _⟩ => ⟨S256x1x1x25x1, .f32⟩
  | .hbm, ⟨22, _⟩ => ⟨S256x3x600x25x2, .f32⟩
  | .hbm, ⟨23, _⟩ => ⟨S256x3x600x25x2, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S256x3x600x25x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S256x3x600x25x2_S256x3x599x25x2_0_0_1_0_0 : S256x3x600x25x2.Slices ![0, 0, 1, 0, 0] S256x3x599x25x2
  slices_S256x3x600x25x2_S256x3x599x25x2_0_0_0_0_0 : S256x3x600x25x2.Slices ![0, 0, 0, 0, 0] S256x3x599x25x2
  reducesTo_S256x3x599x25x2_S256x25_d1_2_4 : S256x3x599x25x2.ReducesTo [1, 2, 4] S256x25
  h_S_ : 0 < S_.numel
  bcast_S_S256x25 : S_.BroadcastsInDim S256x25 (![] : Fin 0 → Fin S256x25.rank)
  reducesTo_S256x25_S256_d1 : S256x25.ReducesTo [1] S256
  bcast_S256_S256x1_0 : S256.BroadcastsInDim S256x1 (![0] : Fin 1 → Fin S256x1.rank)
  bcast_S256x1_S256x25_0_1 : S256x1.BroadcastsInDim S256x25 (![0, 1] : Fin 2 → Fin S256x25.rank)
  bcast_S256x25_S256x1x1x25x1_0_3 : S256x25.BroadcastsInDim S256x1x1x25x1 (![0, 3] : Fin 2 → Fin S256x1x1x25x1.rank)
  bcast_S256x1x1x25x1_S256x3x600x25x2_0_1_2_3_4 : S256x1x1x25x1.BroadcastsInDim S256x3x600x25x2 (![0, 1, 2, 3, 4] : Fin 5 → Fin S256x3x600x25x2.rank)
  reducesTo_S256x3x600x25x2_S_d0_1_2_3_4 : S256x3x600x25x2.ReducesTo [0, 1, 2, 3, 4] S_

variable [Facts₀]

class Facts : Prop extends Facts₀ where

variable [Facts]
-- ==== Proof.Spec.lean ====
/-
  The mathematics both programs compute, per sample, over the extended reals.

  A sample is one slice `x[n]` of an input, read at its coordinates (channel c, time t, joint v, body m). Its
  absolute motion is `|x[c,t+1,v,m] − x[c,t,v,m]|`; a joint's mean motion is the mean of that over channels, times and
  bodies — taken by the kernel one axis at a time (divide by 3, then by 2, then by 599: `meanMoveK`) and by the
  reference in one division by 3594 (`meanMoveR`); a joint's weight is `25 · mean / Σ_joints mean` (`ratio`, an
  extended real: the quotient by a zero sum is an infinity); the sample's loss is the sum over its entries of
  `(x − y)² · weight(joint)`, summed by the kernel innermost-channel-first (`sampleLossK`) and by the reference in
  the array's own order (`sampleLossR`). The float constants are kept as the words both programs spell.
  Definitions only; the laws between them are in SpecLaws.lean.
-/
import Idealize.ShloMosaic.PureOps.Ideal
import Idealize.ShloMosaic.Lib.ValueIdx

noncomputable section

namespace Cert.Spec

open Idealize.ShloMosaic Idealize.ShloMosaic.ValueIdx

/-- One sample of an input: channel, time, joint, body. -/
abbrev Sample := Fin 3 → Fin 600 → Fin 25 → Fin 2 → EReal

abbrev c3 : EReal := Ideal.ofBits .f32 0x40400000#32
abbrev c2 : EReal := Ideal.ofBits .f32 0x40000000#32
abbrev c599 : EReal := Ideal.ofBits .f32 0x4415C000#32
abbrev c3594 : EReal := Ideal.ofBits .f32 0x4560A000#32
abbrev c25 : EReal := Ideal.ofBits .f32 0x41C80000#32
abbrev cScale : EReal := Ideal.ofBits .f32 0x3A800000#32
abbrev cCount : EReal := Ideal.ofBits .f32 0x4BAFC800#32

/-- Sample `n` of an input array of `N` samples, read at its coordinates. -/
def smp {N : Nat} (X : (⟨5, ![N, 3, 600, 25, 2]⟩ : Shape).Idx → EReal) (n : Fin N) : Sample :=
  fun c t v m => X (ix5 n c t v m)

/-- Row `n'` of block `b` of 8 samples is sample `8 b + n'` of the array. -/
def blkRow (b : Fin 32) (n' : Fin 8) : Fin 256 := ⟨8 * b.val + n'.val, by omega⟩

/-- The later of the two times a motion entry compares. -/
def succT (t : Fin 599) : Fin 600 := ⟨t.val + 1, by omega⟩
/-- The earlier one. -/
def castT (t : Fin 599) : Fin 600 := ⟨t.val, by omega⟩

/-- `|x[c,t+1,v,m] − x[c,t,v,m]|`, the absolute value as the maximum of a number and its negation. -/
def absMotion (xs : Sample) (c : Fin 3) (t : Fin 599) (v : Fin 25) (m : Fin 2) : EReal :=
  max (xs c (succT t) v m - xs c (castT t) v m) (-(xs c (succT t) v m - xs c (castT t) v m))

/-- A joint's mean motion, one axis at a time: channels (÷3), bodies (÷2), times (÷599). -/
def meanMoveK (xs : Sample) (v : Fin 25) : EReal :=
  Ideal.div (∑ t : Fin 599, Ideal.div (∑ m : Fin 2, Ideal.div (∑ c : Fin 3, absMotion xs c t v m) c3) c2) c599

/-- A joint's mean motion, in one division by 3 · 599 · 2. -/
def meanMoveR (xs : Sample) (v : Fin 25) : EReal :=
  Ideal.div (∑ c : Fin 3, ∑ t : Fin 599, ∑ m : Fin 2, absMotion xs c t v m) c3594

/-- A joint's weight: 25 times its share of the sample's total mean motion. -/
def ratio (mm : Fin 25 → EReal) (v : Fin 25) : EReal := Ideal.div (c25 * mm v) (∑ k : Fin 25, mm k)

/-- One entry's weighted squared error. -/
def weighted (mm : Fin 25 → EReal) (xs ys : Sample) (c : Fin 3) (t : Fin 600) (v : Fin 25) (m : Fin 2) : EReal :=
  (xs c t v m - ys c t v m) * (xs c t v m - ys c t v m) * ratio mm v

/-- A sample's loss, summed channels innermost, then bodies, joints, times. -/
def sampleLossK (mm : Fin 25 → EReal) (xs ys : Sample) : EReal :=
  ∑ t : Fin 600, ∑ v : Fin 25, ∑ m : Fin 2, ∑ c : Fin 3, weighted mm xs ys c t v m

/-- A sample's loss, summed in the array's own order of axes. -/
def sampleLossR (mm : Fin 25 → EReal) (xs ys : Sample) : EReal :=
  ∑ c : Fin 3, ∑ t : Fin 600, ∑ v : Fin 25, ∑ m : Fin 2, weighted mm xs ys c t v m

/-- The loss of block `b` of 8 samples: the sum of its samples' losses, each with the kernel's mean motion. -/
def blockTotal (X Y : (⟨5, ![256, 3, 600, 25, 2]⟩ : Shape).Idx → EReal) (b : Fin 32) : EReal :=
  ∑ n' : Fin 8, sampleLossK (meanMoveK (smp X (blkRow b n'))) (smp X (blkRow b n')) (smp Y (blkRow b n'))

end Cert.Spec

end
-- ==== Proof.SpecLaws.lean ====
/-
  The laws between the definitions of Spec.lean: the two orders of summing a sample's loss agree on all of the
  extended reals; the mean motion taken one axis at a time agrees with the mean taken in one division as soon as
  every entry of the sample is a real number; and 1024 copies of T · 2⁻¹⁰ add up to T for every extended real T.
-/
import proofs.«425425_j87393994539075_3_alg».proof.Proof.Spec
import Idealize.ShloMosaic.PureOps.Ideal.Laws
import Mathlib.Data.EReal.Operations
import Mathlib.Algebra.BigOperators.Ring.Finset
import Mathlib.Algebra.BigOperators.Field
import Mathlib.Tactic.NormNum
import Mathlib.Tactic.Ring

noncomputable section

namespace Cert.Spec

open Idealize.ShloMosaic

/-! ### The constants as reals -/

theorem c3_eq : c3 = ((3 : ℝ) : EReal) := by
  simp [Ideal.ofBits, Ideal.ieee, -EReal.coe_mul]; norm_num

theorem c2_eq : c2 = ((2 : ℝ) : EReal) := by
  simp [Ideal.ofBits, Ideal.ieee, -EReal.coe_mul]; norm_num

theorem c599_eq : c599 = ((599 : ℝ) : EReal) := by
  simp [Ideal.ofBits, Ideal.ieee, -EReal.coe_mul]; norm_num

theorem c3594_eq : c3594 = ((3594 : ℝ) : EReal) := by
  simp [Ideal.ofBits, Ideal.ieee, -EReal.coe_mul]; norm_num

theorem cScale_eq : cScale = (((1 : ℝ) / 1024 : ℝ) : EReal) := by
  simp [Ideal.ofBits, Ideal.ieee, -EReal.coe_mul]; norm_num

/-! ### The loss: only the order of the four sums differs -/

theorem sampleLossK_eq_R (mm : Fin 25 → EReal) (xs ys : Sample) : sampleLossK mm xs ys = sampleLossR mm xs ys := by
  unfold sampleLossK sampleLossR
  -- bring the channel sum outward one level at a time
  have h1 : ∀ t : Fin 600, ∀ v : Fin 25,
      ∑ m : Fin 2, ∑ c : Fin 3, weighted mm xs ys c t v m = ∑ c : Fin 3, ∑ m : Fin 2, weighted mm xs ys c t v m :=
    fun t v => Finset.sum_comm
  have h2 : ∀ t : Fin 600,
      ∑ v : Fin 25, ∑ m : Fin 2, ∑ c : Fin 3, weighted mm xs ys c t v m
        = ∑ c : Fin 3, ∑ v : Fin 25, ∑ m : Fin 2, weighted mm xs ys c t v m := by
    intro t
    rw [Finset.sum_congr rfl fun v _ => h1 t v]
    exact Finset.sum_comm
  rw [Finset.sum_congr rfl fun t _ => h2 t]
  exact Finset.sum_comm

/-! ### A finite sum of reals, read in the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals, is the larger of their readings. -/
theorem coe_max (x y : ℝ) : ((max x y : ℝ) : EReal) = max (x : EReal) (y : EReal) :=
  EReal.coe_strictMono.monotone.map_max

/-! ### The mean motion -/

theorem meanMoveK_eq_R (xs : Sample) (hfin : ∀ c t v m, ∃ r : ℝ, xs c t v m = (r : EReal)) :
    meanMoveK xs = meanMoveR xs := by
  choose r hr using hfin
  funext v
  -- the absolute motion of a real sample is a real
  have ha : ∀ c t m, absMotion xs c t v m
      = ((max (r c (succT t) v m - r c (castT t) v m) (-(r c (succT t) v m - r c (castT t) v m)) : ℝ) : EReal) := by
    intro c t m
    unfold absMotion
    rw [hr, hr, coe_max, EReal.coe_neg, EReal.coe_sub]
  unfold meanMoveK meanMoveR
  simp only [ha, c3_eq, c2_eq, c599_eq, c3594_eq]
  rw [Ideal.div_coe (by norm_num), Ideal.div_coe (by norm_num)]
  simp only [Ideal.div_coe (show (3 : ℝ) ≠ 0 by norm_num), Ideal.div_coe (show (2 : ℝ) ≠ 0 by norm_num)]
  simp only [← coe_sum, ← EReal.coe_mul]
  congr 1
  simp only [Finset.sum_mul]
  -- channels outward past bodies, then past times
  conv_lhs =>
    arg 2
    ext t
    rw [Finset.sum_comm]
  rw [Finset.sum_comm]
  refine Finset.sum_congr rfl fun c _ => ?_
  refine Finset.sum_congr rfl fun t _ => ?_
  refine Finset.sum_congr rfl fun m _ => ?_
  ring

/-! ### 1024 copies of T · 2⁻¹⁰ -/

theorem scale_sum (T : EReal) : ∑ _i : Fin 8, ∑ _j : Fin 128, T * cScale = T := by
  rw [cScale_eq]
  simp only [Finset.sum_const, Finset.card_univ, Fintype.card_fin, smul_smul]
  rw [EReal.nsmul_eq_mul]
  induction T using EReal.rec with
  | bot =>
    rw [EReal.bot_mul_coe_of_pos (by norm_num)]
    exact EReal.coe_mul_bot_of_pos (x := ((8 * 128 : ℕ) : ℝ)) (by norm_num)
  | top =>
    rw [EReal.top_mul_coe_of_pos (by norm_num)]
    exact EReal.coe_mul_top_of_pos (x := ((8 * 128 : ℕ) : ℝ)) (by norm_num)
  | coe x =>
    rw [← EReal.coe_mul]
    have : ((8 * 128 : ℕ) : EReal) = (((8 * 128 : ℕ) : ℝ) : EReal) := by norm_cast
    rw [this, ← EReal.coe_mul]
    congr 1
    push_cast
    ring

end Cert.Spec

end
-- ==== Proof.KernelPayload.lean ====
/-
  What the kernel's body computes on one pair of blocks, in the shared definitions' words.

  A block holds 8 samples laid out (sample, channel, body, joint, time). The body's arithmetic is one pure term of the two
  loaded blocks; it is cut here into its stages — the absolute motion along time, the joints' mean motion (three
  one-axis sums, each followed by its division), the joints' weights, the weighted squared error, and the total over
  the block (five one-axis sums) — and each stage is read at explicit coordinates: a one-axis sum is the sum over that
  axis's coordinate, a slice shifts the time coordinate, a shape cast or broadcast re-reads the same entry. The
  block's result is the sum over its 8 samples of each sample's loss, and every entry of the stored tile is that
  total times 2⁻¹⁰.
-/
import proofs.«425425_j87393994539075_3_alg».proof.Proof.Spec
import proofs.«425425_j87393994539075_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelValue

open Idealize.ShloMosaic Idealize.ShloMosaic.ValueIdx Cert.KernelIdeal Cert.Spec

/-- Sample `n` of a block, read at the shared coordinates (channel, time, joint, body). -/
def bsmp (x : Vec Ideal S8x3x2x25x600 .f32) (n : Fin 8) : Sample := fun c t v m => x (ix5 n c m v t)

/-! ## One-axis sums read at coordinates -/

section Sums

theorem sumC599 (src : FVec Ideal S8x3x2x25x599 .f32) (h : S8x3x2x25x599.Reduces [1] S8x2x25x599)
    (n : Fin 8) (m : Fin 2) (v : Fin 25) (t : Fin 599) :
    multiReduction .add [1] S8x2x25x599 src 0x00000000#32 h (.inl rfl) rfl (ix4 n m v t) = ∑ c : Fin 3, src (ix5 n c m v t) := by
  refine (Ideal.multiReduction_add_single src _ h (.inl rfl) rfl (ix4 n m v t)).trans ?_
  refine Finset.sum_congr rfl fun c _ => congrArg src ?_
  funext a
  match a with
  | ⟨0, _⟩ => rfl
  | ⟨1, _⟩ => rfl
  | ⟨2, _⟩ => rfl
  | ⟨3, _⟩ => rfl
  | ⟨4, _⟩ => rfl

theorem sumM599 (src : FVec Ideal S8x2x25x599 .f32) (h : S8x2x25x599.Reduces [1] S8x25x599)
    (n : Fin 8) (v : Fin 25) (t : Fin 599) :
    multiReduction .add [1] S8x25x599 src 0x00000000#32 h (.inl rfl) rfl (ix3 n v t) = ∑ m : Fin 2, src (ix4 n m v t) := by
  refine (Ideal.multiReduction_add_single src _ h (.inl rfl) rfl (ix3 n v t)).trans ?_
  refine Finset.sum_congr rfl fun c _ => congrArg src ?_
  funext a
  match a with
  | ⟨0, _⟩ => rfl
  | ⟨1, _⟩ => rfl
  | ⟨2, _⟩ => rfl
  | ⟨3, _⟩ => rfl

theorem sumT599 (src : FVec Ideal S8x25x599 .f32) (h : S8x25x599.Reduces [2] S8x25) (n : Fin 8) (v : Fin 25) :
    multiReduction .add [2] S8x25 src 0x00000000#32 h (.inl rfl) rfl (ix2 n v) = ∑ t : Fin 599, src (ix3 n v t) := by
  refine (Ideal.multiReduction_add_single src _ h (.inl rfl) rfl (ix2 n v)).trans ?_
  refine Finset.sum_congr rfl fun c _ => congrArg src ?_
  funext a
  match a with
  | ⟨0, _⟩ => rfl
  | ⟨1, _⟩ => rfl
  | ⟨2, _⟩ => rfl

theorem sumV (src : FVec Ideal S8x25 .f32) (h : S8x25.Reduces [1] S8) (n : Fin 8) :
    multiReduction .add [1] S8 src 0x00000000#32 h (.inl rfl) rfl (ix1 n) = ∑ v : Fin 25, src (ix2 n v) := by
  refine (Ideal.multiReduction_add_single src _ h (.inl rfl) rfl (ix1 n)).trans ?_
  refine Finset.sum_congr rfl fun c _ => congrArg src ?_
  funext a
  match a with
  | ⟨0, _⟩ => rfl
  | ⟨1, _⟩ => rfl

theorem sumC600 (src : FVec Ideal S8x3x2x25x600 .f32) (h : S8x3x2x25x600.Reduces [1] S8x2x25x600)
    (n : Fin 8) (m : Fin 2) (v : Fin 25) (t : Fin 600) :
    multiReduction .add [1] S8x2x25x600 src 0x00000000#32 h (.inl rfl) rfl (ix4 n m v t) = ∑ c : Fin 3, src (ix5 n c m v t) := by
  refine (Ideal.multiReduction_add_single src _ h (.inl rfl) rfl (ix4 n m v t)).trans ?_
  refine Finset.sum_congr rfl fun c _ => congrArg src ?_
  funext a
  match a with
  | ⟨0, _⟩ => rfl
  | ⟨1, _⟩ => rfl
  | ⟨2, _⟩ => rfl
  | ⟨3, _⟩ => rfl
  | ⟨4, _⟩ => rfl

theorem sumM600 (src : FVec Ideal S8x2x25x600 .f32) (h : S8x2x25x600.Reduces [1] S8x25x600)
    (n : Fin 8) (v : Fin 25) (t : Fin 600) :
    multiReduction .add [1] S8x25x600 src 0x00000000#32 h (.inl rfl) rfl (ix3 n v t) = ∑ m : Fin 2, src (ix4 n m v t) := by
  refine (Ideal.multiReduction_add_single src _ h (.inl rfl) rfl (ix3 n v t)).trans ?_
  refine Finset.sum_congr rfl fun c _ => congrArg src ?_
  funext a
  match a with
  | ⟨0, _⟩ => rfl
  | ⟨1, _⟩ => rfl
  | ⟨2, _⟩ => rfl
  | ⟨3, _⟩ => rfl

theorem sumV600 (src : FVec Ideal S8x25x600 .f32) (h : S8x25x600.Reduces [1] S8x600) (n : Fin 8) (t : Fin 600) :
    multiReduction .add [1] S8x600 src 0x00000000#32 h (.inl rfl) rfl (ix2 n t) = ∑ v : Fin 25, src (ix3 n v t) := by
  refine (Ideal.multiReduction_add_single src _ h (.inl rfl) rfl (ix2 n t)).trans ?_
  refine Finset.sum_congr rfl fun c _ => congrArg src ?_
  funext a
  match a with
  | ⟨0, _⟩ => rfl
  | ⟨1, _⟩ => rfl
  | ⟨2, _⟩ => rfl

theorem sumT600 (src : FVec Ideal S8x600 .f32) (h : S8x600.Reduces [1] S8) (n : Fin 8) :
    multiReduction .add [1] S8 src 0x00000000#32 h (.inl rfl) rfl (ix1 n) = ∑ t : Fin 600, src (ix2 n t) := by
  refine (Ideal.multiReduction_add_single src _ h (.inl rfl) rfl (ix1 n)).trans ?_
  refine Finset.sum_congr rfl fun c _ => congrArg src ?_
  funext a
  match a with
  | ⟨0, _⟩ => rfl
  | ⟨1, _⟩ => rfl

theorem sumN (src : FVec Ideal S8x1 .f32) (h : S8x1.Reduces [0] S1) (j : S1.Idx) :
    multiReduction .add [0] S1 src 0x00000000#32 h (.inl rfl) rfl j = ∑ n : Fin 8, src (ix2 n (0 : Fin 1)) := by
  refine (Ideal.multiReduction_add_single src _ h (.inl rfl) rfl j).trans ?_
  refine Finset.sum_congr rfl fun c _ => congrArg src ?_
  funext a
  match a with
  | ⟨0, _⟩ => rfl
  | ⟨1, _⟩ =>
      apply Fin.ext
      have h1 : (h.lift j c (1 : Fin 2)).val < 1 := (h.lift j c (1 : Fin 2)).isLt
      show (h.lift j c (1 : Fin 2)).val = 0
      omega

end Sums

/-! ## Casts and broadcasts read at coordinates -/

section Layout

/-- A column of 8 read back from the 8 values it was cast from. -/
theorem colCast (x : FVec Ideal S8 .f32) (h : S8.ShapeCasts S8x1) (n : Fin 8) (z : Fin 1) :
    shapeCast S8x1 x h (ix2 n z) = x (ix1 n) := by
  refine shapeCast_apply x h (ix2 n z) (ix1 n) ?_
  rw [Shape.rowMajor_val_one, Shape.rowMajor_val_two]
  have hz : z.val = 0 := by omega
  show n.val = n.val * 1 + z.val
  omega

/-- The column spread over the 25 joints. -/
theorem colBroadcast (x : FVec Ideal S8x1 .f32) (h : S8x1.Broadcasts S8x25) (n : Fin 8) (v : Fin 25) :
    broadcastTo S8x25 x h (ix2 n v) = x (ix2 n (0 : Fin 1)) := by
  refine broadcastTo_apply x h (ix2 n v) (ix2 n (0 : Fin 1)) fun a => ?_
  match a with
  | ⟨0, _⟩ => rfl
  | ⟨1, _⟩ => rfl

/-- The weights re-laid with unit axes for channel, body and time. -/
theorem weightCast (x : FVec Ideal S8x25 .f32) (h : S8x25.ShapeCasts S8x1x1x25x1) (n : Fin 8) (v : Fin 25) :
    shapeCast S8x1x1x25x1 x h (ix5 n (0 : Fin 1) (0 : Fin 1) v (0 : Fin 1)) = x (ix2 n v) := by
  refine shapeCast_apply x h _ (ix2 n v) ?_
  rw [Shape.rowMajor_val_two, Shape.rowMajor_val_five]
  show n.val * 25 + v.val = (((n.val * 1 + 0) * 1 + 0) * 25 + v.val) * 1 + 0
  omega

/-- The weights spread over channel, body and time. -/
theorem weightBroadcast (x : FVec Ideal S8x1x1x25x1 .f32) (h : S8x1x1x25x1.Broadcasts S8x3x2x25x600)
    (n : Fin 8) (c : Fin 3) (m : Fin 2) (v : Fin 25) (t : Fin 600) :
    broadcastTo S8x3x2x25x600 x h (ix5 n c m v t) = x (ix5 n (0 : Fin 1) (0 : Fin 1) v (0 : Fin 1)) := by
  refine broadcastTo_apply x h (ix5 n c m v t) _ fun a => ?_
  match a with
  | ⟨0, _⟩ => rfl
  | ⟨1, _⟩ => rfl
  | ⟨2, _⟩ => rfl
  | ⟨3, _⟩ => rfl
  | ⟨4, _⟩ => rfl

/-- The time slice starting at 1: entry `t` is the block's entry at `t + 1`. -/
theorem sliceLate (x : FVec Ideal S8x3x2x25x600 .f32) (h : S8x3x2x25x600.Slices ![0, 0, 0, 0, 1] S8x3x2x25x599)
    (n : Fin 8) (c : Fin 3) (m : Fin 2) (v : Fin 25) (t : Fin 599) :
    extractStridedSlice S8x3x2x25x599 ![0, 0, 0, 0, 1] x h (ix5 n c m v t) = x (ix5 n c m v (succT t)) := by
  refine extractStridedSlice_apply _ x h _ _ fun a => ?_
  match a with
  | ⟨0, _⟩ => show n.val = 0 + n.val; omega
  | ⟨1, _⟩ => show c.val = 0 + c.val; omega
  | ⟨2, _⟩ => show m.val = 0 + m.val; omega
  | ⟨3, _⟩ => show v.val = 0 + v.val; omega
  | ⟨4, _⟩ => show t.val + 1 = 1 + t.val; omega

/-- The time slice starting at 0. -/
theorem sliceEarly (x : FVec Ideal S8x3x2x25x600 .f32) (h : S8x3x2x25x600.Slices ![0, 0, 0, 0, 0] S8x3x2x25x599)
    (n : Fin 8) (c : Fin 3) (m : Fin 2) (v : Fin 25) (t : Fin 599) :
    extractStridedSlice S8x3x2x25x599 ![0, 0, 0, 0, 0] x h (ix5 n c m v t) = x (ix5 n c m v (castT t)) := by
  refine extractStridedSlice_apply _ x h _ _ fun a => ?_
  match a with
  | ⟨0, _⟩ => show n.val = 0 + n.val; omega
  | ⟨1, _⟩ => show c.val = 0 + c.val; omega
  | ⟨2, _⟩ => show m.val = 0 + m.val; omega
  | ⟨3, _⟩ => show v.val = 0 + v.val; omega
  | ⟨4, _⟩ => show t.val = 0 + t.val; omega

end Layout

/-! ## The body's arithmetic, stage by stage -/

section Stages

variable (x x0 x1 : Vec Ideal S8x3x2x25x600 .f32)

/-- The absolute motion along time of a block. -/
def absMot : FVec Ideal S8x3x2x25x599 .f32 :=
  absf (subf
    (extractStridedSlice S8x3x2x25x599 ![0, 0, 0, 0, 1] (shapeCast S8x3x2x25x600 x Facts₀.shapeCasts_S8x3x2x25x600_S8x3x2x25x600)
      Facts₀.slices_S8x3x2x25x600_o0_0_0_0_1_S8x3x2x25x599)
    (extractStridedSlice S8x3x2x25x599 ![0, 0, 0, 0, 0] (shapeCast S8x3x2x25x600 x Facts₀.shapeCasts_S8x3x2x25x600_S8x3x2x25x600)
      Facts₀.slices_S8x3x2x25x600_o0_0_0_0_0_S8x3x2x25x599))

/-- Summed over channels, and the mean over channels. -/
def chanSum : FVec Ideal S8x2x25x599 .f32 :=
  multiReduction .add [1] S8x2x25x599 (absMot x) 0x00000000#32 Facts₀.reduces_S8x3x2x25x599_S8x2x25x599 (.inl rfl) rfl
def chanMean : FVec Ideal S8x2x25x599 .f32 := divf (chanSum x) (broadcast S8x2x25x599 (Scalar.ofBits .f32 0x40400000#32))
/-- Then over bodies. -/
def bodySum : FVec Ideal S8x25x599 .f32 :=
  multiReduction .add [1] S8x25x599 (chanMean x) 0x00000000#32 Facts₀.reduces_S8x2x25x599_S8x25x599 (.inl rfl) rfl
def bodyMean : FVec Ideal S8x25x599 .f32 := divf (bodySum x) (broadcast S8x25x599 (Scalar.ofBits .f32 0x40000000#32))
/-- Then over times: the joints' mean motion. -/
def timeSum : FVec Ideal S8x25 .f32 :=
  multiReduction .add [2] S8x25 (bodyMean x) 0x00000000#32 Facts₀.reduces_S8x25x599_S8x25 (.inl rfl) rfl
def meanBlk : FVec Ideal S8x25 .f32 := divf (timeSum x) (broadcast S8x25 (Scalar.ofBits .f32 0x4415C000#32))
/-- A sample's total mean motion over its joints, and the joints' weights. -/
def jointSum : FVec Ideal S8 .f32 :=
  multiReduction .add [1] S8 (meanBlk x) 0x00000000#32 Facts₀.reduces_S8x25_S8 (.inl rfl) rfl
def ratioBlk : FVec Ideal S8x25 .f32 :=
  divf (mulf (broadcast S8x25 (Scalar.ofBits .f32 0x41C80000#32)) (meanBlk x))
    (broadcastTo S8x25 (shapeCast S8x1 (jointSum x) Facts₀.shapeCasts_S8_S8x1) Facts₀.broadcasts_S8x1_S8x25)

/-- The difference of the two blocks, and the weighted squared error, entry by entry. -/
def diffBlk : FVec Ideal S8x3x2x25x600 .f32 :=
  subf (shapeCast S8x3x2x25x600 x0 Facts₀.shapeCasts_S8x3x2x25x600_S8x3x2x25x600) (shapeCast S8x3x2x25x600 x1 Facts₀.shapeCasts_S8x3x2x25x600_S8x3x2x25x600)
def weightedBlk : FVec Ideal S8x3x2x25x600 .f32 :=
  mulf (mulf (diffBlk x0 x1) (diffBlk x0 x1))
    (broadcastTo S8x3x2x25x600 (shapeCast S8x1x1x25x1 (ratioBlk x0) Facts₀.shapeCasts_S8x25_S8x1x1x25x1)
      Facts₀.broadcasts_S8x1x1x25x1_S8x3x2x25x600)

/-- The block's total: channels, bodies, joints, times, samples summed in turn. -/
def lossC : FVec Ideal S8x2x25x600 .f32 :=
  multiReduction .add [1] S8x2x25x600 (weightedBlk x0 x1) 0x00000000#32 Facts₀.reduces_S8x3x2x25x600_S8x2x25x600 (.inl rfl) rfl
def lossM : FVec Ideal S8x25x600 .f32 :=
  multiReduction .add [1] S8x25x600 (lossC x0 x1) 0x00000000#32 Facts₀.reduces_S8x2x25x600_S8x25x600 (.inl rfl) rfl
def lossV : FVec Ideal S8x600 .f32 :=
  multiReduction .add [1] S8x600 (lossM x0 x1) 0x00000000#32 Facts₀.reduces_S8x25x600_S8x600 (.inl rfl) rfl
def lossT : FVec Ideal S8 .f32 :=
  multiReduction .add [1] S8 (lossV x0 x1) 0x00000000#32 Facts₀.reduces_S8x600_S8 (.inl rfl) rfl
def lossN : FVec Ideal S1 .f32 :=
  multiReduction .add [0] S1 (shapeCast S8x1 (lossT x0 x1) Facts₀.shapeCasts_S8_S8x1) 0x00000000#32 Facts₀.reduces_S8x1_S1 (.inl rfl) rfl
def totalBlk : FVec Ideal S1x1x1 .f32 :=
  shapeCast S1x1x1 (shapeCast S1x1 (lossN x0 x1) Facts₀.shapeCasts_S1_S1x1) Facts₀.shapeCasts_S1x1_S1x1x1

/-- The body's pure term is these stages composed. -/
theorem pay2_eq : Gen.k0_pay2 (F := Ideal) x0 x1 = totalBlk x0 x1 := rfl

theorem absMot_apply (n : Fin 8) (c : Fin 3) (m : Fin 2) (v : Fin 25) (t : Fin 599) :
    absMot x (ix5 n c m v t) = absMotion (bsmp x n) c t v m := by
  have e1 := sliceLate (shapeCast S8x3x2x25x600 x Facts₀.shapeCasts_S8x3x2x25x600_S8x3x2x25x600)
    Facts₀.slices_S8x3x2x25x600_o0_0_0_0_1_S8x3x2x25x599 n c m v t
  have e2 := sliceEarly (shapeCast S8x3x2x25x600 x Facts₀.shapeCasts_S8x3x2x25x600_S8x3x2x25x600)
    Facts₀.slices_S8x3x2x25x600_o0_0_0_0_0_S8x3x2x25x599 n c m v t
  unfold absMot absMotion bsmp
  simp only [absf, subf]
  rw [e1, e2, shapeCast_self]
  rfl

theorem chanMean_apply (n : Fin 8) (m : Fin 2) (v : Fin 25) (t : Fin 599) :
    chanMean x (ix4 n m v t) = Ideal.div (∑ c : Fin 3, absMotion (bsmp x n) c t v m) c3 :=
  congrArg (fun s => Ideal.div s c3)
    ((sumC599 (absMot x) _ n m v t).trans (Finset.sum_congr rfl fun c _ => absMot_apply x n c m v t))

theorem bodyMean_apply (n : Fin 8) (v : Fin 25) (t : Fin 599) :
    bodyMean x (ix3 n v t) = Ideal.div (∑ m : Fin 2, Ideal.div (∑ c : Fin 3, absMotion (bsmp x n) c t v m) c3) c2 :=
  congrArg (fun s => Ideal.div s c2)
    ((sumM599 (chanMean x) _ n v t).trans (Finset.sum_congr rfl fun m _ => chanMean_apply x n m v t))

theorem meanBlk_apply (n : Fin 8) (v : Fin 25) : meanBlk x (ix2 n v) = meanMoveK (bsmp x n) v :=
  congrArg (fun s => Ideal.div s c599)
    ((sumT599 (bodyMean x) _ n v).trans (Finset.sum_congr rfl fun t _ => bodyMean_apply x n v t))

theorem jointSum_apply (n : Fin 8) : jointSum x (ix1 n) = ∑ k : Fin 25, meanMoveK (bsmp x n) k :=
  (sumV (meanBlk x) _ n).trans (Finset.sum_congr rfl fun k _ => meanBlk_apply x n k)

theorem ratioBlk_apply (n : Fin 8) (v : Fin 25) : ratioBlk x (ix2 n v) = ratio (meanMoveK (bsmp x n)) v := by
  have e : broadcastTo S8x25 (shapeCast S8x1 (jointSum x) Facts₀.shapeCasts_S8_S8x1) Facts₀.broadcasts_S8x1_S8x25 (ix2 n v)
      = ∑ k : Fin 25, meanMoveK (bsmp x n) k :=
    (colBroadcast _ _ n v).trans ((colCast _ _ n 0).trans (jointSum_apply x n))
  unfold ratioBlk ratio
  simp only [divf, mulf, broadcast]
  rw [e, meanBlk_apply]
  rfl

theorem weightedBlk_apply (n : Fin 8) (c : Fin 3) (m : Fin 2) (v : Fin 25) (t : Fin 600) :
    weightedBlk x0 x1 (ix5 n c m v t) = weighted (meanMoveK (bsmp x0 n)) (bsmp x0 n) (bsmp x1 n) c t v m := by
  have e : broadcastTo S8x3x2x25x600 (shapeCast S8x1x1x25x1 (ratioBlk x0) Facts₀.shapeCasts_S8x25_S8x1x1x25x1)
      Facts₀.broadcasts_S8x1x1x25x1_S8x3x2x25x600 (ix5 n c m v t) = ratio (meanMoveK (bsmp x0 n)) v :=
    (weightBroadcast _ _ n c m v t).trans ((weightCast _ _ n v).trans (ratioBlk_apply x0 n v))
  unfold weightedBlk weighted diffBlk bsmp
  simp only [mulf, subf]
  rw [e, shapeCast_self, shapeCast_self]
  rfl

theorem lossT_apply (n : Fin 8) :
    lossT x0 x1 (ix1 n) = sampleLossK (meanMoveK (bsmp x0 n)) (bsmp x0 n) (bsmp x1 n) :=
  (sumT600 (lossV x0 x1) _ n).trans (Finset.sum_congr rfl fun t _ =>
    (sumV600 (lossM x0 x1) _ n t).trans (Finset.sum_congr rfl fun v _ =>
      (sumM600 (lossC x0 x1) _ n v t).trans (Finset.sum_congr rfl fun m _ =>
        (sumC600 (weightedBlk x0 x1) _ n m v t).trans (Finset.sum_congr rfl fun c _ =>
          weightedBlk_apply x0 x1 n c m v t))))

/-- The one entry of the block's total is the sum over its samples of each sample's loss. -/
theorem totalBlk_apply (j : S1x1x1.Idx) :
    totalBlk x0 x1 j = ∑ n : Fin 8, sampleLossK (meanMoveK (bsmp x0 n)) (bsmp x0 n) (bsmp x1 n) := by
  have h0 : (j 0).val < 1 := (j 0).isLt
  have h1 : (j 1).val < 1 := (j 1).isLt
  have h2 : (j 2).val < 1 := (j 2).isLt
  unfold totalBlk
  refine (shapeCast_apply _ _ j (ix2 (0 : Fin 1) (0 : Fin 1)) (by
    rw [Shape.rowMajor_val_two, Shape.rowMajor_val_three]
    show 0 * 1 + 0 = ((j 0).val * 1 + (j 1).val) * 1 + (j 2).val
    omega)).trans ?_
  refine (shapeCast_apply _ _ (ix2 (0 : Fin 1) (0 : Fin 1)) (ix1 (0 : Fin 1)) (by
    rw [Shape.rowMajor_val_one, Shape.rowMajor_val_two]; rfl)).trans ?_
  refine (sumN _ _ (ix1 (0 : Fin 1))).trans (Finset.sum_congr rfl fun n _ => ?_)
  exact (colCast _ _ n 0).trans (lossT_apply x0 x1 n)

/-- Every entry of the stored tile is the one entry of the total times 2⁻¹⁰. -/
theorem pay1_apply (T : FVec Ideal S1x1x1 .f32) (j : S1x8x128.Idx) :
    Gen.k0_pay1 (F := Ideal) T j = T (ix3 (0 : Fin 1) (0 : Fin 1) (0 : Fin 1)) * cScale := by
  unfold Gen.k0_pay1
  refine (broadcastTo_apply _ _ j (ix3 (0 : Fin 1) (0 : Fin 1) (0 : Fin 1)) fun a => ?_).trans ?_
  · match a with
    | ⟨0, _⟩ => rfl
    | ⟨1, _⟩ => rfl
    | ⟨2, _⟩ => rfl
  · rw [shapeCast_self]
    rfl

/-- THE BODY ON A PAIR OF BLOCKS: every entry of the tile it stores is the sum over the block's 8 samples of each
    sample's loss, times 2⁻¹⁰. -/
theorem pay_eq (j : S1x8x128.Idx) :
    Gen.k0_pay1 (F := Ideal) (Gen.k0_pay2 x0 x1) j
      = (∑ n : Fin 8, sampleLossK (meanMoveK (bsmp x0 n)) (bsmp x0 n) (bsmp x1 n)) * cScale := by
  rw [pay1_apply, pay2_eq, totalBlk_apply]

end Stages

end Cert.KernelValue

end
-- ==== Proof.BlockRead.lean ====
/-
  Each input block of the kernel is 8 consecutive samples of the transposed input: at grid point `t` the block's
  sample `n'` is sample `8 t + n'` of the argument array, read at the same channel, time, joint and body (the host
  transposes time and body before the call, and the block is laid out in the transposed order).
-/
import proofs.«425425_j87393994539075_3_alg».proof.Proof.Spec
import proofs.«425425_j87393994539075_3_alg».proof.Proof.KernelPayload
import proofs.«425425_j87393994539075_3_alg».proof.Proof.Gen.KernelIdeal.Frame
import Idealize.ShloMosaic.Lib.Pipeline.Value
import Idealize.ShloMosaic.Lib.StableHlo.Run
import Idealize.ShloMosaic.Lib.Tactic

noncomputable section

namespace Cert.KernelValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ)

/-- A grid point as a block number. -/
def pt (t : Fin cfg0.N) : Fin 32 := ⟨t.val, by have h : t.val < cfg0.N := t.isLt; have e : cfg0.N = 32 := N_0; omega⟩

/-- The index map of both input windows: block `t` along the samples, the whole of every other axis. -/
theorem idx0 : ∀ t : Fin cfg0.N, win0_0.index t (0 : Fin 5) = t.val ∧ win0_0.index t (1 : Fin 5) = 0
    ∧ win0_0.index t (2 : Fin 5) = 0 ∧ win0_0.index t (3 : Fin 5) = 0 ∧ win0_0.index t (4 : Fin 5) = 0 :=
  (by decide +kernel : ∀ t : Fin grid0.N, _)

theorem idx1 : ∀ t : Fin cfg0.N, win0_1.index t (0 : Fin 5) = t.val ∧ win0_1.index t (1 : Fin 5) = 0
    ∧ win0_1.index t (2 : Fin 5) = 0 ∧ win0_1.index t (3 : Fin 5) = 0 ∧ win0_1.index t (4 : Fin 5) = 0 :=
  (by decide +kernel : ∀ t : Fin grid0.N, _)

/-- The first staged array is the host's transpose of the first argument. -/
theorem V_main_v0 (c : Dev nD) : (V m c main_v0 : S256x3x2x25x600.Idx → EReal)
    = transpose S256x3x2x25x600 [0, 1, 4, 3, 2] (m ((c : Thread nD τ).loc main_arg0))
        Facts₀.transposes_S256x3x600x25x2_S256x3x2x25x600_0_1_4_3_2 := by
  show StableHlo.after hostOps0 (fun b => m (c, b)) (Proc.devRef .tc main_v0) = _
  after_results

theorem V_main_v1 (c : Dev nD) : (V m c main_v1 : S256x3x2x25x600.Idx → EReal)
    = transpose S256x3x2x25x600 [0, 1, 4, 3, 2] (m ((c : Thread nD τ).loc main_arg1))
        Facts₀.transposes_S256x3x600x25x2_S256x3x2x25x600_0_1_4_3_2 := by
  show StableHlo.after hostOps0 (fun b => m (c, b)) (Proc.devRef .tc main_v1) = _
  after_results

/-- The transpose read at coordinates: it exchanges time and body. -/
theorem transpose_ix5 (x : S256x3x600x25x2.Idx → EReal) (n : Fin 256) (cc : Fin 3) (mm : Fin 2) (vv : Fin 25) (tt : Fin 600) :
    transpose S256x3x2x25x600 [0, 1, 4, 3, 2] x Facts₀.transposes_S256x3x600x25x2_S256x3x2x25x600_0_1_4_3_2 (ix5 n cc mm vv tt)
      = x (ix5 n cc tt vv mm) := by
  refine transpose_apply _ x _ _ _ fun b => ?_
  match b with
  | ⟨0, _⟩ => rfl
  | ⟨1, _⟩ => rfl
  | ⟨2, _⟩ => rfl
  | ⟨3, _⟩ => rfl
  | ⟨4, _⟩ => rfl

/-- An entry of window 0's block at grid point `t`: sample `8 t + n'` of the first argument, time and body exchanged. -/
theorem iblk0_apply (c : Dev nD) (t : Fin cfg0.N) (n' : Fin 8) (cc : Fin 3) (mm : Fin 2) (vv : Fin 25) (tt : Fin 600) :
    (iblk m c 0 t : Vec Ideal S8x3x2x25x600 .f32) (ix5 n' cc mm vv tt)
      = m ((c : Thread nD τ).loc main_arg0) (ix5 (blkRow (pt t) n') cc tt vv mm) := by
  obtain ⟨h0, h1, h2, h3, h4⟩ := idx0 t
  unfold iblk
  rw [View.read_apply]
  show V m c main_v0 _ = _
  rw [V_main_v0]
  refine Eq.trans ?_ (transpose_ix5 (m ((c : Thread nD τ).loc main_arg0)) (blkRow (pt t) n') cc mm vv tt)
  congr 1
  funext a
  apply Fin.ext
  match a with
  | ⟨0, _⟩ => show win0_0.index t 0 * 8 + 1 * n'.val = 8 * t.val + n'.val; rw [h0]; omega
  | ⟨1, _⟩ => show win0_0.index t 1 * 3 + 1 * cc.val = cc.val; rw [h1]; omega
  | ⟨2, _⟩ => show win0_0.index t 2 * 2 + 1 * mm.val = mm.val; rw [h2]; omega
  | ⟨3, _⟩ => show win0_0.index t 3 * 25 + 1 * vv.val = vv.val; rw [h3]; omega
  | ⟨4, _⟩ => show win0_0.index t 4 * 600 + 1 * tt.val = tt.val; rw [h4]; omega

theorem iblk1_apply (c : Dev nD) (t : Fin cfg0.N) (n' : Fin 8) (cc : Fin 3) (mm : Fin 2) (vv : Fin 25) (tt : Fin 600) :
    (iblk m c 1 t : Vec Ideal S8x3x2x25x600 .f32) (ix5 n' cc mm vv tt)
      = m ((c : Thread nD τ).loc main_arg1) (ix5 (blkRow (pt t) n') cc tt vv mm) := by
  obtain ⟨h0, h1, h2, h3, h4⟩ := idx1 t
  unfold iblk
  rw [View.read_apply]
  show V m c main_v1 _ = _
  rw [V_main_v1]
  refine Eq.trans ?_ (transpose_ix5 (m ((c : Thread nD τ).loc main_arg1)) (blkRow (pt t) n') cc mm vv tt)
  congr 1
  funext a
  apply Fin.ext
  match a with
  | ⟨0, _⟩ => show win0_1.index t 0 * 8 + 1 * n'.val = 8 * t.val + n'.val; rw [h0]; omega
  | ⟨1, _⟩ => show win0_1.index t 1 * 3 + 1 * cc.val = cc.val; rw [h1]; omega
  | ⟨2, _⟩ => show win0_1.index t 2 * 2 + 1 * mm.val = mm.val; rw [h2]; omega
  | ⟨3, _⟩ => show win0_1.index t 3 * 25 + 1 * vv.val = vv.val; rw [h3]; omega
  | ⟨4, _⟩ => show win0_1.index t 4 * 600 + 1 * tt.val = tt.val; rw [h4]; omega

theorem bsmp_iblk0 (c : Dev nD) (t : Fin cfg0.N) (n' : Fin 8) :
    bsmp (iblk m c 0 t) n' = smp (m ((c : Thread nD τ).loc main_arg0)) (blkRow (pt t) n') := by
  funext cc tt vv mm
  unfold bsmp smp
  exact iblk0_apply m c t n' cc mm vv tt

theorem bsmp_iblk1 (c : Dev nD) (t : Fin cfg0.N) (n' : Fin 8) :
    bsmp (iblk m c 1 t) n' = smp (m ((c : Thread nD τ).loc main_arg1)) (blkRow (pt t) n') := by
  funext cc tt vv mm
  unfold bsmp smp
  exact iblk1_apply m c t n' cc mm vv tt

end Cert.KernelValue

end
-- ==== Proof.LibIdxSum.lean ====
/-
  Sums over the index set of a literal rank-3 or rank-5 shape as iterated sums over the coordinates: the index set is
  the product of its coordinate ranges (the rank-2 case is the library's `ValueIdx.sum_idx2`), in any commutative
  additive monoid — the extended reals in particular, where no other law of sums is available.
-/
import Idealize.ShloMosaic.Lib.ValueIdx

namespace Cert.LibIdxSum

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

end Cert.LibIdxSum
-- ==== Proof.HostTail.lean ====
/-
  Two pure facts about the end of the kernel's computation.

  The last two host operations sum the 32 × 8 × 128 array of partial results over all of its axes and divide by the
  entry count. When every entry of block b is that block's total T b scaled by 1/1024, the 8 · 128 = 1024 scaled
  copies add back to T b, so the sum of the array is the sum of the block totals.

  The 256 samples are grouped as 32 blocks of 8: sample 8 b + n' is row n' of block b. Since (b, n') ↦ 8 b + n' is a
  bijection from pairs onto the samples (its inverse is n ↦ (n / 8, n mod 8)), a sum over blocks of the sum over rows
  is the sum over the samples, in any commutative additive monoid.
-/
import proofs.«425425_j87393994539075_3_alg».proof.Proof.Spec
import proofs.«425425_j87393994539075_3_alg».proof.Proof.SpecLaws
import proofs.«425425_j87393994539075_3_alg».proof.Proof.LibIdxSum
import proofs.«425425_j87393994539075_3_alg».proof.KernelIdeal
import Idealize.ShloMosaic.PureOps.Ideal.Laws
import Idealize.ShloMosaic.Lib.ValueIdx

noncomputable section

namespace Cert.HostTail

open Idealize.ShloMosaic Idealize.ShloMosaic.ValueIdx Cert.KernelIdeal Cert.Spec

/-- The total of the array of partial results, divided by the count: each block's 1024 scaled copies of its total add
    back to the total, and the initial value of the sum is zero. -/
theorem tail_value (A : FVec Ideal S32x8x128 .f32) (T : Fin 32 → EReal)
    (hA : ∀ (b : Fin 32) (i : Fin 8) (j : Fin 128), A (ix3 b i j) = T b * cScale)
    (h : S32x8x128.ReducesTo [0, 1, 2] S_) (hS : 0 < S_.numel) :
    Host.divf (Host.reduceAdd A (constant (F := Ideal) S_ .f32 0x00000000#32) h hS) (constant (F := Ideal) S_ .f32 0x4BAFC800#32)
      = fun _ => Ideal.div (∑ b : Fin 32, T b) cCount := by
  funext k
  have hsum : Host.reduceAdd A (constant (F := Ideal) S_ .f32 0x00000000#32) h hS k = ∑ b : Fin 32, T b := by
    simp only [Host.reduceAdd, Ideal.hostReduceAdd_def]
    rw [Ideal.hostReduceAdd_total h (fun b => b.elim0) A _ k, constant_apply, Ideal.ofBits_zero_f32, zero_add,
      Cert.LibIdxSum.sum_idx3]
    refine Finset.sum_congr rfl fun b _ => ?_
    simp only [hA]
    exact scale_sum (T b)
  show FloatOps.hostDivf (Host.reduceAdd A (constant (F := Ideal) S_ .f32 0x00000000#32) h hS k)
      (constant (F := Ideal) S_ .f32 0x4BAFC800#32 k) = _
  rw [hsum]
  rfl

/-- Pairs (block, row) are the samples: (b, n') ↦ 8 b + n', with inverse n ↦ (n / 8, n mod 8). -/
def blkEquiv : Fin 32 × Fin 8 ≃ Fin 256 where
  toFun p := blkRow p.1 p.2
  invFun n := (⟨n.val / 8, by omega⟩, ⟨n.val % 8, by omega⟩)
  left_inv p := by
    rcases p with ⟨b, n'⟩
    refine Prod.ext (Fin.ext ?_) (Fin.ext ?_)
    · show (8 * b.val + n'.val) / 8 = b.val
      omega
    · show (8 * b.val + n'.val) % 8 = n'.val
      omega
  right_inv n := Fin.ext (by
    show 8 * (n.val / 8) + n.val % 8 = n.val
    omega)

/-- A sum over the blocks of the sum over a block's rows is the sum over the samples. -/
theorem sum_blocks {M : Type*} [AddCommMonoid M] (f : Fin 256 → M) :
    ∑ b : Fin 32, ∑ n' : Fin 8, f (blkRow b n') = ∑ n : Fin 256, f n := by
  rw [← Equiv.sum_comp blkEquiv f, Fintype.sum_prod_type]
  rfl

end Cert.HostTail

end
-- ==== Proof.KernelValue.lean ====
/-
  The kernel program's result, read off its run.

  At grid point `t` the body stores one 8×128 tile whose every entry is block `t`'s loss times 2⁻¹⁰ (the body's pure
  term on the point's two input blocks, and each input block's samples are the array's samples `8t … 8t+7`). The 32
  tiles tile the array of partial results, so after the region that array holds, at every entry of tile `b`, block
  `b`'s loss times 2⁻¹⁰. The two host lines after the region add up all its entries and divide by the count of
  entries of the inputs: the 1024 equal entries of each tile add up to the block's loss, so the result is the sum of
  the 32 block losses divided by the count.
-/
import proofs.«425425_j87393994539075_3_alg».proof.Proof.Spec
import proofs.«425425_j87393994539075_3_alg».proof.Proof.SpecLaws
import proofs.«425425_j87393994539075_3_alg».proof.Proof.KernelPayload
import proofs.«425425_j87393994539075_3_alg».proof.Proof.BlockRead
import proofs.«425425_j87393994539075_3_alg».proof.Proof.HostTail
import proofs.«425425_j87393994539075_3_alg».proof.Proof.Gen.KernelIdeal.Frame
import Idealize.ShloMosaic.Lib.Pipeline.Value
import Idealize.ShloMosaic.Lib.StableHlo.Run
import Idealize.ShloMosaic.Lib.Tactic

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The array of partial results after the region: every entry of tile `b` is block `b`'s loss times 2⁻¹⁰. -/
def partials (c : Dev nD) : S32x8x128.Idx → EReal := fun i =>
  blockTotal (m ((c : Thread nD τ).loc main_arg0)) (m ((c : Thread nD τ).loc main_arg1)) ⟨(i 0).val, (i 0).isLt⟩ * cScale

/-- The output's index map, decided over the 32 grid points: point `t` writes tile `t`. -/
theorem out_idx : ∀ t : Fin cfg0.N, win0_2.index t (0 : Fin 3) = t.val ∧ win0_2.index t (1 : Fin 3) = 0 ∧ win0_2.index t (2 : Fin 3) = 0 :=
  (by decide +kernel : ∀ t : Fin grid0.N, _)

/-- What point `t` writes back is tile `t` of the partial results. -/
theorem flushed_eq (c : Dev nD) (t : Fin cfg0.N) :
    (dats m 0 c).flushed 2 t = ((cfg0.win 2).blk t).view.read (Elt Ideal) (partials m c) := by
  show (cfg0.win 2).cut (grid0.coords t) ((dats m 0 c).after 2 t) = _
  rw [after0_2]
  unfold out0_2
  rw [View.canon_unit_zero hz3]
  simp only [View.ld_unit_zero (S := S8x3x2x25x600) hz5]
  obtain ⟨e0, e1, e2⟩ := out_idx t
  funext j
  show k0_pay1 (k0_pay2 (iblk m c 0 t) (iblk m c 1 t)) j = partials m c (((cfg0.win 2).blk t).view.emb j)
  refine (pay_eq (iblk m c 0 t) (iblk m c 1 t) j).trans ?_
  unfold partials blockTotal
  have hb : (⟨((((cfg0.win 2).blk t).view.emb j) 0).val, ((((cfg0.win 2).blk t).view.emb j) 0).isLt⟩ : Fin 32) = pt t := by
    apply Fin.ext
    show win0_2.index t (0 : Fin 3) * 1 + 1 * (j 0).val = t.val
    have hj : (j 0).val < 1 := (j 0).isLt
    omega
  rw [hb]
  refine congrArg (· * cScale) (Finset.sum_congr rfl fun n' _ => ?_)
  rw [bsmp_iblk0, bsmp_iblk1]

/-- An index of the array is in point `t`'s tile iff each coordinate is in the tile's range on its axis. -/
theorem mem_blk (t : Fin cfg0.N) (i : S32x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- Every entry of the array is in the tile of the point its first coordinate names. -/
theorem cover (i : S32x8x128.Idx) : ∃ t : Fin cfg0.N, (cfg0.win 2).flush t = true ∧ i ∈ ((cfg0.win 2).blk t).view.set := by
  have hi0 : (i 0).val < 32 := (i 0).isLt
  have hi1 : (i 1).val < 8 := (i 1).isLt
  have hi2 : (i 2).val < 128 := (i 2).isLt
  have hN : cfg0.N = 32 := N_0
  obtain ⟨e0', e1, e2⟩ := out_idx ⟨(i 0).val, by omega⟩
  have e0 : win0_2.index (⟨(i 0).val, by omega⟩ : Fin cfg0.N) (0 : Fin 3) = (i 0).val := e0'
  refine ⟨⟨(i 0).val, by omega⟩, flush0_2 _, ?_⟩
  rw [mem_blk]
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    rw [e0]; omega
  | ⟨1, _⟩ =>
    show win0_2.index ⟨(i 0).val, _⟩ (1 : Fin 3) * 8 ≤ (i 1).val ∧ (i 1).val < win0_2.index ⟨(i 0).val, _⟩ (1 : Fin 3) * 8 + 8
    rw [e1]; omega
  | ⟨2, _⟩ =>
    show win0_2.index ⟨(i 0).val, _⟩ (2 : Fin 3) * 128 ≤ (i 2).val ∧ (i 2).val < win0_2.index ⟨(i 0).val, _⟩ (2 : Fin 3) * 128 + 128
    rw [e2]; omega

/-- The array of partial results after the region. -/
theorem final_partials (c : Dev nD) : (dats m 0 c).arrAt 2 cfg0.N = partials m c :=
  (dats m 0 c).arrAt_eq_of_cover 2 (partials m c) (fun t _ => flushed_eq m c t) cover

/-- The program's result after the two host lines that follow the region. -/
theorem tail_result (c : Dev nD) :
    Pipeline.afterTail₀ cfgs (dats m) 0 (V0 m) [hostOps1] c main_v4
      = fun _ => Ideal.div (∑ b : Fin 32, blockTotal (m ((c : Thread nD τ).loc main_arg0)) (m ((c : Thread nD τ).loc main_arg1)) b) cCount := by
  unfold Pipeline.afterTail₀
  show StableHlo.after hostOps1 _ (Proc.devRef .tc main_v4) = _
  after_results
  rw [(Pipeline.withArrays_arr spec0 launch0.win.arr_inj c _ _ 2).trans (final_partials m c)]
  exact Cert.HostTail.tail_value (partials m c) _ (fun b i j => rfl) _ _

/-- THE KERNEL PROGRAM'S RUN: it ends with its result at the sum of the 32 block losses over the count, its arguments
    unchanged. -/
theorem kernel_run : θ_run defs (onTc (τ := τ) (main (F := Ideal))) ⟨m, fun _ => 0, ρ⟩ fun r => ∀ c : Dev nD,
      r.2.mem ((c : Thread nD τ).loc main_v4)
        = (fun _ => Ideal.div (∑ b : Fin 32, blockTotal (m ((c : Thread nD τ).loc main_arg0)) (m ((c : Thread nD τ).loc main_arg1)) b) cCount)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelValue

end
-- ==== Proof.RefValue.lean ====
/-
  What the reference program computes, in the words of the shared definitions: the mean over all 23 040 000
  entries of the weighted squared error, which is the sum over the 256 samples of each sample's loss (summed in the
  array's own order of axes) divided by the entry count.

  The reference's arrays are read one operation at a time at explicit coordinates (sample n, channel c, time t,
  joint v, body m). The only step that is not a pointwise reading is the sum of the absolute motion over the channel,
  time and body axes at once: the indices that drop to a given (n, v) are exactly those with that sample and that joint,
  so the filtered sum over the whole index set is the triple sum over the remaining coordinates.
-/
import proofs.«425425_j87393994539075_3_alg».proof.Proof.Spec
import proofs.«425425_j87393994539075_3_alg».proof.Proof.LibIdxSum
import proofs.«425425_j87393994539075_3_alg».proof.Proof.Gen.ReferenceIdeal.Read
import Idealize.ShloMosaic.PureOps.Ideal.Laws

noncomputable section

namespace Cert.RefValue

open Cert.ReferenceIdeal Cert.ReferenceIdeal.Read Cert.Spec Idealize.ShloMosaic Idealize.ShloMosaic.ValueIdx

/-- The input array type of the reference. -/
abbrev Arr := (⟨S256x3x600x25x2, .f32⟩ : BufTy).Contents (Elt Ideal)

/-! ## Index arithmetic at explicit coordinates -/

/-- Dropping the channel, time and body coordinates of (n, c, t, v, m) leaves (n, v). -/
theorem drop_ix5 (h : S256x3x599x25x2.ReducesTo [1, 2, 4] S256x25)
    (n : Fin 256) (c : Fin 3) (t : Fin 599) (v : Fin 25) (m : Fin 2) :
    h.drop (ix5 n c t v m) = ix2 n v := by
  funext b
  match b with
  | ⟨0, _⟩ => rfl
  | ⟨1, _⟩ => rfl

/-- The later slice reads time t + 1. -/
theorem idx_v0_ix5 (n : Fin 256) (c : Fin 3) (t : Fin 599) (v : Fin 25) (m : Fin 2) :
    idx_main_v0 (ix5 n c t v m) = ix5 n c (succT t) v m := by
  funext a
  match a with
  | ⟨0, _⟩ => rfl
  | ⟨1, _⟩ => rfl
  | ⟨2, _⟩ => exact Fin.ext (by show 1 + t.val = t.val + 1; omega)
  | ⟨3, _⟩ => rfl
  | ⟨4, _⟩ => rfl

/-- The earlier slice reads time t. -/
theorem idx_v1_ix5 (n : Fin 256) (c : Fin 3) (t : Fin 599) (v : Fin 25) (m : Fin 2) :
    idx_main_v1 (ix5 n c t v m) = ix5 n c (castT t) v m := by
  funext a
  match a with
  | ⟨0, _⟩ => rfl
  | ⟨1, _⟩ => rfl
  | ⟨2, _⟩ => rfl
  | ⟨3, _⟩ => rfl
  | ⟨4, _⟩ => rfl

/-- The sum over joints at sample n reads (n, k). -/
theorem idx_v9_ix1 (n : Fin 256) (k : Fin 25) : idx_main_v9 (ix1 n) k = ix2 n k := by
  funext a
  match a with
  | ⟨0, _⟩ => rfl
  | ⟨1, _⟩ => rfl

/-- Broadcasting the per-sample total back over the joints reads sample n. -/
theorem idx_v10_v11_ix2 (n : Fin 256) (v : Fin 25) : idx_main_v10 (idx_main_v11 (ix2 n v)) = ix1 n := by
  funext a
  match a with
  | ⟨0, _⟩ => rfl

/-- Broadcasting the weights over channels, times and bodies reads (n, v). -/
theorem idx_v15_v16_ix5 (n : Fin 256) (c : Fin 3) (t : Fin 600) (v : Fin 25) (m : Fin 2) :
    idx_main_v15 (idx_main_v16 (ix5 n c t v m)) = ix2 n v := by
  funext a
  match a with
  | ⟨0, _⟩ => rfl
  | ⟨1, _⟩ => rfl

/-! ## The absolute motion and its sum over channels, times and bodies -/

/-- The reference's absolute motion at (n, c, t, v, m) is sample n's. -/
theorem v3_ix5 (X : Arr) (n : Fin 256) (c : Fin 3) (t : Fin 599) (v : Fin 25) (m : Fin 2) :
    val_main_v3 (F := Ideal) X (ix5 n c t v m) = absMotion (smp X n) c t v m := by
  rw [val_main_v3_apply, val_main_v2_apply, val_main_v0_apply, val_main_v1_apply, idx_v0_ix5, idx_v1_ix5]
  rfl

/-- The sum over the axes (channel, time, body) at (n, v): the indices dropping to (n, v) are those of sample n and
    joint v, so the sum over them is the triple sum over the other coordinates; the initial value is zero. -/
theorem v4_ix2 (X : Arr) (n : Fin 256) (v : Fin 25) :
    val_main_v4 (F := Ideal) X (ix2 n v)
      = ∑ c : Fin 3, ∑ t : Fin 599, ∑ m : Fin 2, absMotion (smp X n) c t v m := by
  unfold val_main_v4
  simp only [Host.reduceAdd, Ideal.hostReduceAdd_def]
  unfold Ideal.hostReduceAdd
  rw [val_main_cst_apply, Ideal.ofBits_def, Ideal.ofBits_zero_f32, zero_add, Finset.sum_filter,
    Cert.LibIdxSum.sum_idx5]
  simp only [drop_ix5, v3_ix5]
  rw [Finset.sum_eq_single n]
  · refine Finset.sum_congr rfl fun c _ => Finset.sum_congr rfl fun t _ => ?_
    rw [Finset.sum_eq_single v]
    · exact Finset.sum_congr rfl fun m _ => if_pos rfl
    · intro d _ hd
      exact Finset.sum_eq_zero fun m _ => if_neg fun h => hd (congrFun h 1)
    · intro h; exact absurd (Finset.mem_univ v) h
  · intro a _ ha
    exact Finset.sum_eq_zero fun c _ => Finset.sum_eq_zero fun t _ => Finset.sum_eq_zero fun d _ =>
      Finset.sum_eq_zero fun m _ => if_neg fun h => ha (congrFun h 0)
  · intro h; exact absurd (Finset.mem_univ n) h

/-! ## The joints' mean motion, its total, and the weights -/

/-- The mean motion of joint v of sample n: one division by 3594. -/
theorem v6_ix2 (X : Arr) (n : Fin 256) (v : Fin 25) :
    val_main_v6 (F := Ideal) X (ix2 n v) = meanMoveR (smp X n) v := by
  rw [val_main_v6_apply, v4_ix2, val_main_v5_apply, val_main_cst_0_apply]
  rfl

/-- The total of sample n's mean motions over its joints (the initial value is zero). -/
theorem v9_ix1 (X : Arr) (n : Fin 256) :
    val_main_v9 (F := Ideal) X (ix1 n) = ∑ k : Fin 25, meanMoveR (smp X n) k := by
  rw [val_main_v9_apply, val_main_cst_2_apply, Ideal.ofBits_def, Ideal.ofBits_zero_f32, zero_add]
  exact Finset.sum_congr rfl fun k _ => by rw [idx_v9_ix1, v6_ix2]

/-- The weight of joint v of sample n. -/
theorem v12_ix2 (X : Arr) (n : Fin 256) (v : Fin 25) :
    val_main_v12 (F := Ideal) X (ix2 n v) = ratio (meanMoveR (smp X n)) v := by
  rw [val_main_v12_apply, val_main_v8_apply, val_main_v7_apply, val_main_cst_1_apply, v6_ix2,
    val_main_v11_apply, val_main_v10_apply, idx_v10_v11_ix2, v9_ix1]
  rfl

/-! ## The weighted squared error and its total -/

/-- One entry's weighted squared error. -/
theorem v17_ix5 (X Y : Arr) (n : Fin 256) (c : Fin 3) (t : Fin 600) (v : Fin 25) (m : Fin 2) :
    val_main_v17 (F := Ideal) X Y (ix5 n c t v m)
      = weighted (meanMoveR (smp X n)) (smp X n) (smp Y n) c t v m := by
  rw [val_main_v17_apply, val_main_v14_apply, val_main_v13_apply, val_main_v16_apply, val_main_v15_apply,
    idx_v15_v16_ix5, v12_ix2]
  rfl

/-- The reference's result: the sum over the samples of each sample's loss, divided by the entry count. -/
theorem ref_value (X Y : (⟨Cert.ReferenceIdeal.S256x3x600x25x2, .f32⟩ : BufTy).Contents (Elt Ideal)) :
    Cert.ReferenceIdeal.Read.val_main_v19 (F := Ideal) X Y
      = fun _ => Ideal.div (∑ n : Fin 256, Cert.Spec.sampleLossR (Cert.Spec.meanMoveR (Cert.Spec.smp X n)) (Cert.Spec.smp X n) (Cert.Spec.smp Y n)) Cert.Spec.cCount := by
  funext i
  rw [val_main_v19_apply, val_main_v18_apply, val_main_cst_3_apply, val_main_cst_4_apply, Ideal.ofBits_def,
    Ideal.ofBits_zero_f32, zero_add, Cert.LibIdxSum.sum_idx5]
  simp only [v17_ix5]
  rfl

end Cert.RefValue

end
-- ==== Proof.Bridge.lean ====
/-
  The two totals agree for finite inputs.

  The kernel's total is the sum over the 32 blocks of each block's total, a block's total being the sum over its 8
  samples of the sample's loss with the mean motion taken one axis at a time and the entries summed channels
  innermost. The reference's total is the sum over the 256 samples of the sample's loss with the mean motion taken in
  one division and the entries summed in the array's own order. Regrouping the samples into blocks does not change a
  sum; for a sample of real entries the nested mean is the one-division mean; and the order of the four sums of a loss
  is immaterial.
-/
import proofs.«425425_j87393994539075_3_alg».proof.Proof.Spec
import proofs.«425425_j87393994539075_3_alg».proof.Proof.SpecLaws
import proofs.«425425_j87393994539075_3_alg».proof.Proof.HostTail

noncomputable section

namespace Cert.Bridge

open Idealize.ShloMosaic Idealize.ShloMosaic.ValueIdx Cert.Spec

/-- The sum of the block totals is the sum of the samples' losses as the reference takes them. -/
theorem total_eq (X Y : (⟨5, ![256, 3, 600, 25, 2]⟩ : Shape).Idx → EReal) (hX : ∀ i, ∃ r : ℝ, X i = (r : EReal)) :
    ∑ b : Fin 32, blockTotal X Y b = ∑ n : Fin 256, sampleLossR (meanMoveR (smp X n)) (smp X n) (smp Y n) := by
  unfold blockTotal
  rw [Cert.HostTail.sum_blocks (fun n => sampleLossK (meanMoveK (smp X n)) (smp X n) (smp Y n))]
  refine Finset.sum_congr rfl fun n _ => ?_
  rw [meanMoveK_eq_R (smp X n) (fun c t v m => hX _), sampleLossK_eq_R]

end Cert.Bridge

end
-- ==== Proof.Finite.lean ====
/-
  The precondition read back: both inputs are finite everywhere, so every entry of either array is a real number.
  The printed predicate is the conjunction of two "all entries satisfy |x| < +∞"; over the extended reals |x| is
  max x (−x), which is ⊤ at both infinities and a real at a real, so |x| < ⊤ holds exactly at the reals.
-/
import proofs.«425425_j87393994539075_3_alg».proof.Pre_finite_inputs
import Idealize.ShloMosaic.Lib.ReduceAll
import Idealize.ShloMosaic.Lib.ValueIdx
import Idealize.ShloMosaic.PureOps.Ideal.Laws
import Mathlib.Data.EReal.Operations

noncomputable section

namespace Cert.Finite

open Idealize.ShloMosaic

/-- A rank-0 array has one index. -/
instance : Subsingleton Cert.Pre_finite_inputs.S_.Idx := ⟨fun a b => funext fun d => d.elim0⟩

/-- The word of +∞ denotes ⊤. -/
theorem ofBits_inf : Ideal.ofBits .f32 0x7F800000#32 = (⊤ : EReal) := by
  simp [Ideal.ofBits, Ideal.ieee]

/-- An extended real whose absolute value is below ⊤ is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem finite_of_pre [Cert.Pre_finite_inputs.Facts] (X Y : FVec Ideal Cert.Pre_finite_inputs.S256x3x600x25x2 .f32)
    (h : Cert.Pre_finite_inputs.fn (F := Ideal) X Y = fun _ => 1#1) :
    (∀ i, ∃ r : ℝ, X i = (r : EReal)) ∧ (∀ i, ∃ r : ℝ, Y i = (r : EReal)) := by
  -- the predicate's one value is the conjunction of the two reductions by "and"
  have h0 := congrFun h ValueIdx.ix0
  dsimp only [Cert.Pre_finite_inputs.fn] at h0
  obtain ⟨hX, hY⟩ := IntOp.andi_eq_one.1 h0
  have key : ∀ (Z : FVec Ideal Cert.Pre_finite_inputs.S256x3x600x25x2 .f32) (i : Cert.Pre_finite_inputs.S256x3x600x25x2.Idx),
      cmpf .olt (Host.absf Z)
        (broadcastInDim Cert.Pre_finite_inputs.S256x3x600x25x2 ![] Cert.Pre_finite_inputs.Facts.bcast_S_S256x3x600x25x2
          (constant Cert.Pre_finite_inputs.S_ .f32 0x7F800000#32)) i = 1#1 → ∃ r : ℝ, Z i = (r : EReal) := by
    intro Z i hi
    refine real_of_abs_lt_top (Z i) ?_
    -- entry i of the comparison is the comparison of |Z i| = max (Z i) (−Z i) with the broadcast constant's one value
    rw [← hi, ← ofBits_inf]
    rfl
  exact ⟨fun i => key X i (Host.reduce_andi_all _ _ _ _ _ hX i), fun i => key Y i (Host.reduce_andi_all _ _ _ _ _ hY i)⟩

end Cert.Finite

end
-- ==== Proof.lean ====
/-
  Both programs compute the mean, over all 256 · 3 · 600 · 25 · 2 entries, of the squared error (x − y)² weighted per
  joint by 25 times the joint's share of its sample's mean absolute motion |x[t+1] − x[t]|. The kernel works on 32
  blocks of 8 samples: it takes a joint's mean motion one axis at a time (÷3, ÷2, ÷599), sums a sample's weighted
  errors channels innermost, writes each block's total T scaled by 2⁻¹⁰ into all 8 · 128 entries of the block's tile,
  and finally sums every tile and divides by the entry count. The reference divides the motion sum once by 3594, sums
  all entries in the array's own order and divides by the same count.
  The laws that join them: for finite inputs the nested mean equals the one-division mean (all sums are of reals);
  the four sums of a sample's loss, and the samples regrouped into blocks, may be reordered (the extended reals are a
  commutative additive monoid); and 1024 copies of T · 2⁻¹⁰ add to T. So the two results are one extended real.
-/
import proofs.«425425_j87393994539075_3_alg».proof.Defs
import proofs.«425425_j87393994539075_3_alg».proof.Proof.Gen.Kernel
import proofs.«425425_j87393994539075_3_alg».proof.Proof.Gen.Kernel.Skeleton
import proofs.«425425_j87393994539075_3_alg».proof.Proof.Gen.Kernel.Launch
import proofs.«425425_j87393994539075_3_alg».proof.Proof.Gen.Kernel.Points
import proofs.«425425_j87393994539075_3_alg».proof.Proof.Gen.Kernel.Frame
import proofs.«425425_j87393994539075_3_alg».proof.Proof.Gen.KernelIdeal
import proofs.«425425_j87393994539075_3_alg».proof.Proof.Gen.KernelIdeal.Skeleton
import proofs.«425425_j87393994539075_3_alg».proof.Proof.Gen.KernelIdeal.Launch
import proofs.«425425_j87393994539075_3_alg».proof.Proof.Gen.KernelIdeal.Points
import proofs.«425425_j87393994539075_3_alg».proof.Proof.Gen.KernelIdeal.Frame
import proofs.«425425_j87393994539075_3_alg».proof.Proof.Gen.ReferenceIdeal
import proofs.«425425_j87393994539075_3_alg».proof.Proof.Gen.Pre_finite_inputs
import proofs.«425425_j87393994539075_3_alg».proof.Proof.Gen.ReferenceIdeal.Run
import proofs.«425425_j87393994539075_3_alg».proof.Proof.Gen.ReferenceIdeal.Read
import proofs.«425425_j87393994539075_3_alg».proof.Proof.KernelValue
import proofs.«425425_j87393994539075_3_alg».proof.Proof.RefValue
import proofs.«425425_j87393994539075_3_alg».proof.Proof.Bridge
import proofs.«425425_j87393994539075_3_alg».proof.Proof.Finite
import Idealize.ShloMosaic.Adequacy
import Idealize.ShloMosaic.Init

noncomputable section

namespace Cert.Proof

open Idealize.ShloMosaic Idealize.SL.Sem Cert.Kernel

/-- The kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From finite arguments that agree, the kernel ends at the sum of its block totals over the count and the reference
    at the sum of its samples' losses over the count: one extended real, since the two totals agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelValue.kernel_run m ρ, ?_⟩
  refine (θ_run Cert.ReferenceIdeal.defs _ _).mono (fun _ h c => ⟨(h c).1.trans ?_, (h c).2⟩)
    (Cert.ReferenceIdeal.Value.run (F := Ideal) m' ρ')
  have hX := (Cert.Finite.finite_of_pre _ _ (hpre c)).1
  rw [Cert.ReferenceIdeal.Read.val_main_v19_eq, Cert.RefValue.ref_value, (hagree c).1, (hagree c).2]
  funext _
  congr 1
  exact (Cert.Bridge.total_eq _ _ hX).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
